-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S256 .f32) (main_arg6 : FVec F S256x2 .f32) (main_arg7 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x2 .f32 := Host.absf main_arg6
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x2 .f32) (main_arg7 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x256 : Shape := ⟨2, ![10000, 256]⟩
abbrev S850000x256 : Shape := ⟨2, ![850000, 256]⟩
abbrev S1x256 : Shape := ⟨2, ![1, 256]⟩
abbrev S1x2 : Shape := ⟨2, ![1, 2]⟩
abbrev S50000x2 : Shape := ⟨2, ![50000, 2]⟩
abbrev S10000x2 : Shape := ⟨2, ![10000, 2]⟩
abbrev S50000x1 : Shape := ⟨2, ![50000, 1]⟩

abbrev nBuf : Space → Nat
  | .hbm => 117
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x2, .f32⟩
  | .hbm, ⟨7, _⟩ => ⟨S2, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .bf16⟩
  | .hbm, ⟨49, _⟩ => ⟨S256x256, .bf16⟩
  | .hbm, ⟨50, _⟩ => ⟨S50000x256, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x256, .f32⟩
  | .hbm, ⟨60, _⟩ => ⟨S850000x1, .f32⟩
  | .hbm, ⟨61, _⟩ => ⟨S850000x256, .f32⟩
  | .hbm, ⟨62, _⟩ => ⟨S850000x256, .f32⟩
  | .hbm, ⟨63, _⟩ => ⟨S_, .f32⟩
  | .hbm, ⟨64, _⟩ => ⟨S50000x256, .f32⟩
  | .hbm, ⟨65, _⟩ => ⟨S850000x1, .i32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S50000x256, .f32⟩
  | .hbm, ⟨72, _⟩ => ⟨S50000x256, .f32⟩
  | .hbm, ⟨73, _⟩ => ⟨S50000x256, .bf16⟩
  | .hbm, ⟨74, _⟩ => ⟨S256x256, .bf16⟩
  | .hbm, ⟨75, _⟩ => ⟨S50000x256, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x256, .f32⟩
  | .hbm, ⟨85, _⟩ => ⟨S850000x1, .f32⟩
  | .hbm, ⟨86, _⟩ => ⟨S850000x256, .f32⟩
  | .hbm, ⟨87, _⟩ => ⟨S850000x256, .f32⟩
  | .hbm, ⟨88, _⟩ => ⟨S_, .f32⟩
  | .hbm, ⟨89, _⟩ => ⟨S50000x256, .f32⟩
  | .hbm, ⟨90, _⟩ => ⟨S850000x1, .i32⟩
  | .hbm, ⟨91, _⟩ => ⟨S50000x256, .f32⟩
  | .hbm, ⟨92, _⟩ => ⟨S1x256, .f32⟩
  | .hbm, ⟨93, _⟩ => ⟨S50000x256, .f32⟩
  | .hbm, ⟨94, _⟩ => ⟨S50000x256, .f32⟩
  | .hbm, ⟨95, _⟩ => ⟨S_, .f32⟩
  | .hbm, ⟨96, _⟩ => ⟨S50000x256, .f32⟩
  | .hbm, ⟨97, _⟩ => ⟨S50000x256, .f32⟩
  | .hbm, ⟨98, _⟩ => ⟨S50000x256, .bf16⟩
  | .hbm, ⟨99, _⟩ => ⟨S256x2, .bf16⟩
  | .hbm, ⟨100, _⟩ => ⟨S1x2, .f32⟩
  | .hbm, ⟨101, _⟩ => ⟨S50000x2, .f32⟩
  | .hbm, ⟨102, _⟩ => ⟨S_, .f32⟩
  | .hbm, ⟨103, _⟩ => ⟨S50000, .f32⟩
  | .hbm, ⟨104, _⟩ => ⟨S_, .f32⟩
  | .hbm, ⟨105, _⟩ => ⟨S50000, .f32⟩
  | .hbm, ⟨106, _⟩ => ⟨S50000, .f32⟩
  | .hbm, ⟨107, _⟩ => ⟨S50000x1, .f32⟩
  | .hbm, ⟨108, _⟩ => ⟨S50000x2, .f32⟩
  | .hbm, ⟨109, _⟩ => ⟨S50000x2, .f32⟩
  | .hbm, ⟨110, _⟩ => ⟨S50000x2, .f32⟩
  | .hbm, ⟨111, _⟩ => ⟨S_, .f32⟩
  | .hbm, ⟨112, _⟩ => ⟨S50000, .f32⟩
  | .hbm, ⟨113, _⟩ => ⟨S50000x1, .f32⟩
  | .hbm, ⟨114, _⟩ => ⟨S50000x1, .f32⟩
  | .hbm, ⟨115, _⟩ => ⟨S50000x2, .f32⟩
  | .hbm, ⟨116, _⟩ => ⟨S50000x2, .f32⟩
  | .local _ .vmem, ⟨0, _⟩ => ⟨S10000x256, .bf16⟩
  | .local _ .vmem, ⟨1, _⟩ => ⟨S10000x256, .bf16⟩
  | .local _ .vmem, ⟨2, _⟩ => ⟨S256x256, .bf16⟩
  | .local _ .vmem, ⟨3, _⟩ => ⟨S10000x256, .f32⟩
  | .local _ .vmem, ⟨4, _⟩ => ⟨S10000x256, .f32⟩
  | .local _ .vmem, ⟨5, _⟩ => ⟨S10000x256, .bf16⟩
  | .local _ .vmem, ⟨6, _⟩ => ⟨S10000x256, .bf16⟩
  | .local _ .vmem, ⟨7, _⟩ => ⟨S256x256, .bf16⟩
  | .local _ .vmem, ⟨8, _⟩ => ⟨S10000x256, .f32⟩
  | .local _ .vmem, ⟨9, _⟩ => ⟨S10000x256, .f32⟩
  | .local _ .vmem, ⟨10, _⟩ => ⟨S10000x256, .bf16⟩
  | .local _ .vmem, ⟨11, _⟩ => ⟨S10000x256, .bf16⟩
  | .local _ .vmem, ⟨12, _⟩ => ⟨S256x2, .bf16⟩
  | .local _ .vmem, ⟨13, _⟩ => ⟨S1x2, .f32⟩
  | .local _ .vmem, ⟨14, _⟩ => ⟨S10000x2, .f32⟩
  | .local _ .vmem, ⟨15, _⟩ => ⟨S10000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_cst : Ref sig .tc := ⟨.hbm, 95, rfl⟩
abbrev main_call2_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call3_cst : Ref sig .tc := ⟨.hbm, 102, rfl⟩
abbrev main_call3_v0 : Ref sig .tc := ⟨.hbm, 103, rfl⟩
abbrev main_call3_cst_0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_v6 : Ref sig .tc := ⟨.hbm, 110, rfl⟩
abbrev main_call3_cst_1 : Ref sig .tc := ⟨.hbm, 111, rfl⟩
abbrev main_call3_v7 : Ref sig .tc := ⟨.hbm, 112, rfl⟩
abbrev main_call3_v8 : Ref sig .tc := ⟨.hbm, 113, rfl⟩
abbrev main_call3_v9 : Ref sig .tc := ⟨.hbm, 114, rfl⟩
abbrev main_call3_v10 : Ref sig .tc := ⟨.hbm, 115, rfl⟩
abbrev main_v74 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x2 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2_S1x2 : S2.ShapeCasts S1x2
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x256_S256x256_S10000x256_1_0_0_1_n_n_wf : DotDims.WF S10000x256 S256x256 S10000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S10000x256_S256x2_S10000x2_1_0_0_1_n_n_wf : DotDims.WF S10000x256 S256x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S50000x256.size a
  hwx0_0 : ∀ i : grid0.Coords, EltTy.bits .bf16 = 32 ∨ (Rect.block (s := S50000x256) S10000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S50000x256.size a
  hwx0_2 : ∀ i : grid0.Coords, EltTy.bits .f32 = 32 ∨ (Rect.block (s := S50000x256) S10000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S50000x256.size a
  hwx1_0 : ∀ i : grid1.Coords, EltTy.bits .bf16 = 32 ∨ (Rect.block (s := S50000x256) S10000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x256.size a ≤ S50000x256.size a
  hwx1_2 : ∀ i : grid1.Coords, EltTy.bits .f32 = 32 ∨ (Rect.block (s := S50000x256) S10000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x256.size a ≤ S50000x256.size a
  hwx2_0 : ∀ i : grid2.Coords, EltTy.bits .bf16 = 32 ∨ (Rect.block (s := S50000x256) S10000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x2.size a ≤ S256x2.size a
  hwx2_1 : ∀ i : grid2.Coords, EltTy.bits .bf16 = 32 ∨ (Rect.block (s := S256x2) S256x2.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x2.size a ≤ S50000x2.size a
  hwx2_3 : ∀ i : grid2.Coords, EltTy.bits .f32 = 32 ∨ (Rect.block (s := S50000x2) S10000x2.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S10000x256_S256x2_S10000x2_1_0_0_1_n_n : DotDims S10000x256 S256x2 S10000x2 where
  lhsContracting := [1]
  rhsContracting := [0]
  lhsNonContracting := [0]
  rhsNonContracting := [1]
  lhsBatch := []
  rhsBatch := []
  wf := dot_S10000x256_S256x2_S10000x2_1_0_0_1_n_n_wf

abbrev win0_0 : Pipeline.Window sig grid0 :=
  Pipeline.Window.ofSpec (Memref.whole main_v30) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S10000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S256x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S10000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x2 : Shape := ⟨2, ![50000, 2]⟩
abbrev S1x2 : Shape := ⟨2, ![1, 2]⟩
abbrev S50000x1 : Shape := ⟨2, ![50000, 1]⟩

abbrev nBuf : Space → Nat
  | .hbm => 113
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x2, .f32⟩
  | .hbm, ⟨7, _⟩ => ⟨S2, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x256, .f32⟩
  | .hbm, ⟨81, _⟩ => ⟨S850000x1, .f32⟩
  | .hbm, ⟨82, _⟩ => ⟨S850000x256, .f32⟩
  | .hbm, ⟨83, _⟩ => ⟨S850000x256, .f32⟩
  | .hbm, ⟨84, _⟩ => ⟨S_, .f32⟩
  | .hbm, ⟨85, _⟩ => ⟨S50000x256, .f32⟩
  | .hbm, ⟨86, _⟩ => ⟨S850000x1, .i32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S50000x256, .f32⟩
  | .hbm, ⟨91, _⟩ => ⟨S_, .f32⟩
  | .hbm, ⟨92, _⟩ => ⟨S50000x256, .f32⟩
  | .hbm, ⟨93, _⟩ => ⟨S50000x256, .f32⟩
  | .hbm, ⟨94, _⟩ => ⟨S50000x2, .f32⟩
  | .hbm, ⟨95, _⟩ => ⟨S1x2, .f32⟩
  | .hbm, ⟨96, _⟩ => ⟨S50000x2, .f32⟩
  | .hbm, ⟨97, _⟩ => ⟨S50000x2, .f32⟩
  | .hbm, ⟨98, _⟩ => ⟨S_, .f32⟩
  | .hbm, ⟨99, _⟩ => ⟨S50000, .f32⟩
  | .hbm, ⟨100, _⟩ => ⟨S_, .f32⟩
  | .hbm, ⟨101, _⟩ => ⟨S50000, .f32⟩
  | .hbm, ⟨102, _⟩ => ⟨S50000, .f32⟩
  | .hbm, ⟨103, _⟩ => ⟨S50000x1, .f32⟩
  | .hbm, ⟨104, _⟩ => ⟨S50000x2, .f32⟩
  | .hbm, ⟨105, _⟩ => ⟨S50000x2, .f32⟩
  | .hbm, ⟨106, _⟩ => ⟨S50000x2, .f32⟩
  | .hbm, ⟨107, _⟩ => ⟨S_, .f32⟩
  | .hbm, ⟨108, _⟩ => ⟨S50000, .f32⟩
  | .hbm, ⟨109, _⟩ => ⟨S50000x1, .f32⟩
  | .hbm, ⟨110, _⟩ => ⟨S50000x1, .f32⟩
  | .hbm, ⟨111, _⟩ => ⟨S50000x2, .f32⟩
  | .hbm, ⟨112, _⟩ => ⟨S50000x2, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call3_cst : Ref sig .tc := ⟨.hbm, 98, rfl⟩
abbrev main_call3_v0 : Ref sig .tc := ⟨.hbm, 99, rfl⟩
abbrev main_call3_cst_0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_cst_1 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_v70 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x2_S50000x2_1_0_0_1_n_n_wf : DotDims.WF S50000x256 S256x2 S50000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.Spec.lean ====
/-
  The two-layer graph convolution both programs compute, named piece by piece over the reference's own vocabulary
  (its shapes and dimension records), for any float family `F`:
    * `src`, `dst`   — the endpoints of the 800000 edges followed by one self loop per node (850000 entries each);
    * `wrap`          — an index list read the way `x[idx]` reads it (a negative entry counts from the end), as gather start indices;
    * `deg`, `dis`, `norm` — the in-degree with self loops, its inverse square root where positive (0 elsewhere), and the
                          symmetric edge weight dis[src]·dis[dst];
    * `agg h s d w b` — relu (segment_sum over d of h[s]·w  +  b): one layer after its dense product `h`;
    * `lsm`           — the row-wise log-softmax of the [50000, 2] logits;
    * `xw`, `logits`  — the dense products (the reference's `dot_general`), the last with its bias row added;
    * `G`             — the whole function of the eight arguments.
  Nothing here is opened by the proofs that use it: each program is shown to compute `G` of its arguments by matching
  these pieces whole.
-/
import proofs.«171579_j8770323219097_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- The contents of a buffer of shape `S` and element type `e`. -/
abbrev Arr (F : FTy → Type) (S : Shape) (e : EltTy) : Type := (⟨S, e⟩ : BufTy).Contents (Elt F)

/-- Row `r` of the edge list followed by the node numbers 0 … 49999 (the self loops). -/
def endpoints (r : Fin 2 → Nat) (hs : S2x800000.Slices r S1x800000) (ei : Arr F S2x800000 .i32) : Arr F S850000 .i32 :=
  concatenate S850000 0 [⟨S800000, (shapeCast _ (extractStridedSlice S1x800000 r ei hs) shapeCasts_S1x800000_S800000)⟩, ⟨S50000, (iotaInDim S50000 32 0)⟩] concatenates_S800000_S50000_S850000_d0

/-- Sources of the edges, then the self loops. -/
def src (ei : Arr F S2x800000 .i32) : Arr F S850000 .i32 := endpoints ![0, 0] slices_S2x800000_S1x800000_0_0 ei
/-- Destinations of the edges, then the self loops. -/
def dst (ei : Arr F S2x800000 .i32) : Arr F S850000 .i32 := endpoints ![1, 0] slices_S2x800000_S1x800000_1_0 ei

/-- An index list as gather start indices: an entry below zero has 50000 added. -/
def wrap (v : Arr F S850000 .i32) : Arr F S850000x1 .i32 :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- In-degree of every node, self loop included: ones summed by destination. -/
def deg (d : Arr F S850000 .i32) : Arr F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- deg^(-1/2) where the degree is positive, 0 elsewhere. -/
def dis (g : Arr F S50000 .f32) : Arr F S50000 .f32 :=
  select (cmpf (F := F) .ogt g (broadcastInDim S50000 ![] bcast_S_S50000 (constant S_ .f32 0x00000000#32))) (Host.rsqrt g) (broadcastInDim S50000 ![] bcast_S_S50000 (id (constant S_ .f32 0x00000000#32)))

/-- The symmetric weight of every edge: dis[src] · dis[dst]. -/
def norm (s d : Arr F S850000 .i32) : Arr F S850000 .f32 :=
  mulf (Host.gather gather_S50000_S850000x1_S850000_n_0_n_n_0_1_1 (dis (deg d)) (wrap s)) (Host.gather gather_S50000_S850000x1_S850000_n_0_n_n_0_1_1 (dis (deg d)) (wrap d))

/-- One layer after its dense product `h`: relu (Σ over edges into a node of h[source]·weight, plus the bias row). -/
def agg (h : Arr F S50000x256 .f32) (s d : Arr F S850000 .i32) (w : Arr F S850000 .f32) (b : Arr F S256 .f32) : Arr F S50000x256 .f32 :=
  maximumf (addf (Host.scatterAdd scatter_S50000x256_S850000x1_S850000x256_1_0_0_1 (broadcastInDim S50000x256 ![] bcast_S_S50000x256 (constant S_ .f32 0x00000000#32)) (broadcastInDim S850000x1 ![0] bcast_S850000_S850000x1_0 d) (mulf (Host.gather gather_S50000x256_S850000x1_S850000x256_1_0_n_n_0_1_1256 h (wrap s)) (broadcastInDim S850000x256 ![0, 1] bcast_S850000x1_S850000x256_0_1 (broadcastInDim S850000x1 ![0] bcast_S850000_S850000x1_0 w)))) (broadcastInDim S50000x256 ![0, 1] bcast_S1x256_S50000x256_0_1 (broadcastInDim S1x256 ![1] bcast_S256_S1x256_1 b))) (broadcastInDim S50000x256 ![] bcast_S_S50000x256 (constant S_ .f32 0x00000000#32))

/-- The largest entry of every row (against −∞). -/
def rowMax (z : Arr F S50000x2 .f32) : Arr F S50000 .f32 :=
  maximumf (broadcastInDim S50000 ![] bcast_S_S50000 (constant S_ .f32 0xFF800000#32)) (Host.reduce FloatOps.maximumf z (constant S_ .f32 0xFF800000#32) reducesTo_S50000x2_S50000_d1 h_S_)

/-- Every row with its largest entry taken off. -/
def shifted (z : Arr F S50000x2 .f32) : Arr F S50000x2 .f32 :=
  subf z (broadcastInDim S50000x2 ![0, 1] bcast_S50000x1_S50000x2_0_1 (broadcastInDim S50000x1 ![0] bcast_S50000_S50000x1_0 (rowMax z)))

/-- Row-wise log-softmax. -/
def lsm (z : Arr F S50000x2 .f32) : Arr F S50000x2 .f32 :=
  subf (shifted z) (broadcastInDim S50000x2 ![0, 1] bcast_S50000x1_S50000x2_0_1 (Host.log (broadcastInDim S50000x1 ![0] bcast_S50000_S50000x1_0 (Host.reduceAdd (Host.exp (shifted z)) (constant S_ .f32 0x00000000#32) reducesTo_S50000x2_S50000_d1 h_S_))))

/-- A dense layer's product, features × weights. -/
def xw (h : Arr F S50000x256 .f32) (W : Arr F S256x256 .f32) : Arr F S50000x256 .f32 :=
  Host.dotGeneral dot_S50000x256_S256x256_S50000x256_1_0_0_1_n_n none h W

/-- The classifier: features × weights plus the bias row. -/
def logits (h : Arr F S50000x256 .f32) (W : Arr F S256x2 .f32) (b : Arr F S2 .f32) : Arr F S50000x2 .f32 :=
  addf (Host.dotGeneral dot_S50000x256_S256x2_S50000x2_1_0_0_1_n_n none h W) (broadcastInDim S50000x2 ![0, 1] bcast_S1x2_S50000x2_0_1 (broadcastInDim S1x2 ![1] bcast_S2_S1x2_1 b))

/-- The first hidden layer. -/
def h1 (x : Arr F S50000x256 .f32) (ei : Arr F S2x800000 .i32) (W1 : Arr F S256x256 .f32) (b1 : Arr F S256 .f32) : Arr F S50000x256 .f32 :=
  agg (xw x W1) (src ei) (dst ei) (norm (src ei) (dst ei)) b1

/-- The second hidden layer, over the first. -/
def h2 (x : Arr F S50000x256 .f32) (ei : Arr F S2x800000 .i32) (W1 : Arr F S256x256 .f32) (b1 : Arr F S256 .f32)
    (W2 : Arr F S256x256 .f32) (b2 : Arr F S256 .f32) : Arr F S50000x256 .f32 :=
  agg (xw (h1 x ei W1 b1) W2) (src ei) (dst ei) (norm (src ei) (dst ei)) b2

/-- The whole network: log-softmax of the classifier over two graph-convolution layers. -/
def G (x : Arr F S50000x256 .f32) (ei : Arr F S2x800000 .i32) (W1 : Arr F S256x256 .f32) (b1 : Arr F S256 .f32)
    (W2 : Arr F S256x256 .f32) (b2 : Arr F S256 .f32) (Wfc : Arr F S256x2 .f32) (bfc : Arr F S2 .f32) : Arr F S50000x2 .f32 :=
  lsm (logits (h2 x ei W1 b1 W2 b2) Wfc bfc)

end Cert.Gcn

end
-- ==== Proof.RefValue.lean ====
/-
  The reference's result, as the generated run states it — one long term of the host operations over the eight argument
  arrays —, is the network `Cert.Gcn.G` of those arrays: the term is `G`'s pieces written out in full, piece for piece.
-/
import proofs.«171579_j8770323219097_1_alg».proof.Proof.RefRun
import proofs.«171579_j8770323219097_1_alg».proof.Proof.Spec

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 200000 in
set_option maxHeartbeats 4000000 in
/-- The run's result term is the network of the launch contents of the eight arguments. -/
theorem res_eq (m : (ℓ : Loc nD τ sig) → Buf (Elt F) ℓ) (c : Dev nD) :
    Cert.ReferenceIdeal.ValueP.res_main_v70 (F := F) m c
      = Cert.Gcn.G (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v70 Cert.Gcn.G Cert.Gcn.lsm Cert.Gcn.shifted Cert.Gcn.rowMax Cert.Gcn.logits
    Cert.Gcn.h2 Cert.Gcn.h1 Cert.Gcn.agg Cert.Gcn.xw Cert.Gcn.norm Cert.Gcn.dis Cert.Gcn.deg Cert.Gcn.wrap Cert.Gcn.src
    Cert.Gcn.dst Cert.Gcn.endpoints
  rfl

end Cert.ReferenceIdeal.RefValue

end
-- ==== Proof.KernelChain.lean ====
/-
  The idealized kernel program's buffers, followed from the launch to the result.

  @main is three stretches of host operations, a dense-product kernel, three more stretches, the second kernel, three more,
  the classifier's kernel, and the log-softmax. The generated frame names the buffer contents at every boundary
  (`Gen.W0` … `Gen.W13`). Here each buffer a later step reads is followed back to what wrote it, for any float family:
    * at the first kernel's entry (`W3`): the edge endpoints with self loops (`src`, `dst`), the edge weights (`norm`), the
      features and the first weights narrowed to bf16, and the untouched arguments;
    * across a kernel (`W4`, `W8`, `W12`): its result array at what the pipeline leaves, every other buffer as entered;
    * at the second kernel's entry (`W7`): the first layer (`agg` of the first kernel's result) narrowed, the second weights narrowed;
    * at the classifier's entry (`W11`): the second layer narrowed, the classifier's weights narrowed, the bias as a [1, 2] row;
    * at the end (`W13`): the log-softmax of the classifier's result.
  The host stretches are the reference's own operations on other buffers, so each stretch's value is a piece of `Cert.Gcn`
  taken whole.
-/
import proofs.«171579_j8770323219097_1_alg».proof.Proof.Gen.KernelIdeal.Frame
import proofs.«171579_j8770323219097_1_alg».proof.Proof.Spec

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## At the first kernel's entry -/

theorem src3 : W3 m ρ c (Proc.devRef .tc main_v3) = Cert.Gcn.src (m ((c : Thread nD τ).loc main_arg1)) := by
  show StableHlo.after hostOps0_2 (StableHlo.after hostOps0_1 (StableHlo.after hostOps0 (W0 m ρ c))) (Proc.devRef .tc main_v3) = _
  after_results_simp <;> rfl
theorem dst3 : W3 m ρ c (Proc.devRef .tc main_v6) = Cert.Gcn.dst (m ((c : Thread nD τ).loc main_arg1)) := by
  show StableHlo.after hostOps0_2 (StableHlo.after hostOps0_1 (StableHlo.after hostOps0 (W0 m ρ c))) (Proc.devRef .tc main_v6) = _
  after_results_simp <;> rfl
theorem norm3 : W3 m ρ c (Proc.devRef .tc main_v29) = Cert.Gcn.norm (Cert.Gcn.src (m ((c : Thread nD τ).loc main_arg1))) (Cert.Gcn.dst (m ((c : Thread nD τ).loc main_arg1))) := by
  show StableHlo.after hostOps0_2 (StableHlo.after hostOps0_1 (StableHlo.after hostOps0 (W0 m ρ c))) (Proc.devRef .tc main_v29) = _
  after_results_simp <;> rfl
/-- The features, narrowed. -/
theorem x3 : W3 m ρ c (Proc.devRef .tc main_v30) = truncf .bf16 (m ((c : Thread nD τ).loc main_arg0)) bitsLt_bf16_f32 := by
  show StableHlo.after hostOps0_2 (StableHlo.after hostOps0_1 (StableHlo.after hostOps0 (W0 m ρ c))) (Proc.devRef .tc main_v30) = _
  after_results_simp <;> rfl
/-- The first layer's weights, narrowed. -/
theorem w3 : W3 m ρ c (Proc.devRef .tc main_v31) = truncf .bf16 (m ((c : Thread nD τ).loc main_arg2)) bitsLt_bf16_f32 := by
  show StableHlo.after hostOps0_2 (StableHlo.after hostOps0_1 (StableHlo.after hostOps0 (W0 m ρ c))) (Proc.devRef .tc main_v31) = _
  after_results_simp <;> rfl
theorem arg3_3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem arg4_3 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem arg5_3 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem arg6_3 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem arg7_3 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

/-! ## Across the first kernel -/

/-- The first kernel's result array. -/
theorem out4 : W4 m ρ c (Proc.devRef .tc main_v32) = (dat0 (V3 m ρ) c).arrAt 2 cfg0.N := W4_arr m ρ c 2
theorem src4 : W4 m ρ c (Proc.devRef .tc main_v3) = Cert.Gcn.src (m ((c : Thread nD τ).loc main_arg1)) := (W4_of_ne m ρ c main_v3 (by decide)).trans (src3 m ρ c)
theorem dst4 : W4 m ρ c (Proc.devRef .tc main_v6) = Cert.Gcn.dst (m ((c : Thread nD τ).loc main_arg1)) := (W4_of_ne m ρ c main_v6 (by decide)).trans (dst3 m ρ c)
theorem norm4 : W4 m ρ c (Proc.devRef .tc main_v29) = Cert.Gcn.norm (Cert.Gcn.src (m ((c : Thread nD τ).loc main_arg1))) (Cert.Gcn.dst (m ((c : Thread nD τ).loc main_arg1))) := (W4_of_ne m ρ c main_v29 (by decide)).trans (norm3 m ρ c)
theorem arg3_4 : W4 m ρ c (Proc.devRef .tc main_arg3) = m ((c : Thread nD τ).loc main_arg3) := (W4_of_ne m ρ c main_arg3 (by decide)).trans (arg3_3 m ρ c)
theorem arg4_4 : W4 m ρ c (Proc.devRef .tc main_arg4) = m ((c : Thread nD τ).loc main_arg4) := (W4_of_ne m ρ c main_arg4 (by decide)).trans (arg4_3 m ρ c)
theorem arg5_4 : W4 m ρ c (Proc.devRef .tc main_arg5) = m ((c : Thread nD τ).loc main_arg5) := (W4_of_ne m ρ c main_arg5 (by decide)).trans (arg5_3 m ρ c)
theorem arg6_4 : W4 m ρ c (Proc.devRef .tc main_arg6) = m ((c : Thread nD τ).loc main_arg6) := (W4_of_ne m ρ c main_arg6 (by decide)).trans (arg6_3 m ρ c)
theorem arg7_4 : W4 m ρ c (Proc.devRef .tc main_arg7) = m ((c : Thread nD τ).loc main_arg7) := (W4_of_ne m ρ c main_arg7 (by decide)).trans (arg7_3 m ρ c)

/-! ## At the second kernel's entry -/

/-- The first layer over the first kernel's result, narrowed. -/
theorem h7 : W7 m ρ c (Proc.devRef .tc main_v50)
    = truncf .bf16 (Cert.Gcn.agg ((dat0 (V3 m ρ) c).arrAt 2 cfg0.N) (Cert.Gcn.src (m ((c : Thread nD τ).loc main_arg1))) (Cert.Gcn.dst (m ((c : Thread nD τ).loc main_arg1))) (Cert.Gcn.norm (Cert.Gcn.src (m ((c : Thread nD τ).loc main_arg1))) (Cert.Gcn.dst (m ((c : Thread nD τ).loc main_arg1)))) (m ((c : Thread nD τ).loc main_arg3))) bitsLt_bf16_f32 := by
  rw [← out4 m ρ c, ← norm4 m ρ c, ← src4 m ρ c, ← dst4 m ρ c, ← arg3_4 m ρ c]
  show StableHlo.after hostOps1_2 (StableHlo.after hostOps1_1 (StableHlo.after hostOps1 (W4 m ρ c))) (Proc.devRef .tc main_v50) = _
  after_results_simp <;> rfl
/-- The second layer's weights, narrowed. -/
theorem w7 : W7 m ρ c (Proc.devRef .tc main_v51) = truncf .bf16 (m ((c : Thread nD τ).loc main_arg4)) bitsLt_bf16_f32 := by
  rw [← arg4_4 m ρ c]
  show StableHlo.after hostOps1_2 (StableHlo.after hostOps1_1 (StableHlo.after hostOps1 (W4 m ρ c))) (Proc.devRef .tc main_v51) = _
  after_results_simp <;> rfl
theorem src7 : W7 m ρ c (Proc.devRef .tc main_v3) = Cert.Gcn.src (m ((c : Thread nD τ).loc main_arg1)) := by
  rw [← src4 m ρ c]
  show StableHlo.after hostOps1_2 (StableHlo.after hostOps1_1 (StableHlo.after hostOps1 (W4 m ρ c))) (Proc.devRef .tc main_v3) = _
  after_results_simp
theorem dst7 : W7 m ρ c (Proc.devRef .tc main_v6) = Cert.Gcn.dst (m ((c : Thread nD τ).loc main_arg1)) := by
  rw [← dst4 m ρ c]
  show StableHlo.after hostOps1_2 (StableHlo.after hostOps1_1 (StableHlo.after hostOps1 (W4 m ρ c))) (Proc.devRef .tc main_v6) = _
  after_results_simp
theorem norm7 : W7 m ρ c (Proc.devRef .tc main_v29) = Cert.Gcn.norm (Cert.Gcn.src (m ((c : Thread nD τ).loc main_arg1))) (Cert.Gcn.dst (m ((c : Thread nD τ).loc main_arg1))) := by
  rw [← norm4 m ρ c]
  show StableHlo.after hostOps1_2 (StableHlo.after hostOps1_1 (StableHlo.after hostOps1 (W4 m ρ c))) (Proc.devRef .tc main_v29) = _
  after_results_simp
theorem arg5_7 : W7 m ρ c (Proc.devRef .tc main_arg5) = m ((c : Thread nD τ).loc main_arg5) := by
  rw [← arg5_4 m ρ c]
  show StableHlo.after hostOps1_2 (StableHlo.after hostOps1_1 (StableHlo.after hostOps1 (W4 m ρ c))) (Proc.devRef .tc main_arg5) = _
  after_results_simp
theorem arg6_7 : W7 m ρ c (Proc.devRef .tc main_arg6) = m ((c : Thread nD τ).loc main_arg6) := by
  rw [← arg6_4 m ρ c]
  show StableHlo.after hostOps1_2 (StableHlo.after hostOps1_1 (StableHlo.after hostOps1 (W4 m ρ c))) (Proc.devRef .tc main_arg6) = _
  after_results_simp
theorem arg7_7 : W7 m ρ c (Proc.devRef .tc main_arg7) = m ((c : Thread nD τ).loc main_arg7) := by
  rw [← arg7_4 m ρ c]
  show StableHlo.after hostOps1_2 (StableHlo.after hostOps1_1 (StableHlo.after hostOps1 (W4 m ρ c))) (Proc.devRef .tc main_arg7) = _
  after_results_simp

/-! ## Across the second kernel -/

/-- The second kernel's result array. -/
theorem out8 : W8 m ρ c (Proc.devRef .tc main_v52) = (dat1 (V7 m ρ) c).arrAt 2 cfg1.N := W8_arr m ρ c 2
theorem src8 : W8 m ρ c (Proc.devRef .tc main_v3) = Cert.Gcn.src (m ((c : Thread nD τ).loc main_arg1)) := (W8_of_ne m ρ c main_v3 (by decide)).trans (src7 m ρ c)
theorem dst8 : W8 m ρ c (Proc.devRef .tc main_v6) = Cert.Gcn.dst (m ((c : Thread nD τ).loc main_arg1)) := (W8_of_ne m ρ c main_v6 (by decide)).trans (dst7 m ρ c)
theorem norm8 : W8 m ρ c (Proc.devRef .tc main_v29) = Cert.Gcn.norm (Cert.Gcn.src (m ((c : Thread nD τ).loc main_arg1))) (Cert.Gcn.dst (m ((c : Thread nD τ).loc main_arg1))) := (W8_of_ne m ρ c main_v29 (by decide)).trans (norm7 m ρ c)
theorem arg5_8 : W8 m ρ c (Proc.devRef .tc main_arg5) = m ((c : Thread nD τ).loc main_arg5) := (W8_of_ne m ρ c main_arg5 (by decide)).trans (arg5_7 m ρ c)
theorem arg6_8 : W8 m ρ c (Proc.devRef .tc main_arg6) = m ((c : Thread nD τ).loc main_arg6) := (W8_of_ne m ρ c main_arg6 (by decide)).trans (arg6_7 m ρ c)
theorem arg7_8 : W8 m ρ c (Proc.devRef .tc main_arg7) = m ((c : Thread nD τ).loc main_arg7) := (W8_of_ne m ρ c main_arg7 (by decide)).trans (arg7_7 m ρ c)

/-! ## At the classifier's entry -/

/-- The second layer over the second kernel's result, narrowed. -/
theorem h11 : W11 m ρ c (Proc.devRef .tc main_v70)
    = truncf .bf16 (Cert.Gcn.agg ((dat1 (V7 m ρ) c).arrAt 2 cfg1.N) (Cert.Gcn.src (m ((c : Thread nD τ).loc main_arg1))) (Cert.Gcn.dst (m ((c : Thread nD τ).loc main_arg1))) (Cert.Gcn.norm (Cert.Gcn.src (m ((c : Thread nD τ).loc main_arg1))) (Cert.Gcn.dst (m ((c : Thread nD τ).loc main_arg1)))) (m ((c : Thread nD τ).loc main_arg5))) bitsLt_bf16_f32 := by
  rw [← out8 m ρ c, ← norm8 m ρ c, ← src8 m ρ c, ← dst8 m ρ c, ← arg5_8 m ρ c]
  show StableHlo.after hostOps2_2 (StableHlo.after hostOps2_1 (StableHlo.after hostOps2 (W8 m ρ c))) (Proc.devRef .tc main_v70) = _
  after_results_simp <;> rfl
/-- The classifier's weights, narrowed. -/
theorem w11 : W11 m ρ c (Proc.devRef .tc main_v71) = truncf .bf16 (m ((c : Thread nD τ).loc main_arg6)) bitsLt_bf16_f32 := by
  rw [← arg6_8 m ρ c]
  show StableHlo.after hostOps2_2 (StableHlo.after hostOps2_1 (StableHlo.after hostOps2 (W8 m ρ c))) (Proc.devRef .tc main_v71) = _
  after_results_simp <;> rfl
/-- The classifier's bias as a [1, 2] row. -/
theorem b11 : W11 m ρ c (Proc.devRef .tc main_v72) = shapeCast S1x2 (m ((c : Thread nD τ).loc main_arg7)) shapeCasts_S2_S1x2 := by
  rw [← arg7_8 m ρ c]
  show StableHlo.after hostOps2_2 (StableHlo.after hostOps2_1 (StableHlo.after hostOps2 (W8 m ρ c))) (Proc.devRef .tc main_v72) = _
  after_results_simp <;> rfl

/-! ## Across the classifier's kernel, and the end -/

/-- The classifier's result array. -/
theorem out12 : W12 m ρ c (Proc.devRef .tc main_v73) = (dat2 (V11 m ρ) c).arrAt 3 cfg2.N := W12_arr m ρ c 3

set_option maxRecDepth 200000 in
/-- The program's result: the log-softmax of the classifier's result array. -/
theorem result13 : W13 m ρ c (Proc.devRef .tc main_v74) = Cert.Gcn.lsm ((dat2 (V11 m ρ) c).arrAt 3 cfg2.N) := by
  rw [← out12 m ρ c]
  show StableHlo.after hostOps3 (W12 m ρ c) (Proc.devRef .tc main_v74) = _
  after_results_simp <;> (try simp only [TRef.ofBuf, TRef.toBuf, cast_eq]) <;> rfl

end Cert.KernelIdeal.Chain

end
-- ==== Proof.LibPlainDot.lean ====
/-
  A plain matrix product read at an index.

  A contraction `D : DotDims [M, K] [K, N] [M, N]` that contracts the one axis of extent `K` — the left operand's
  columns against the right operand's rows, no batch axis — reads, at the output index (r, c) and the contraction index k,
  the left operand at (r, k) and the right operand at (k, c). Given those four coordinate facts about `D` (each is a
  computation on a literal record), the sum over `D`'s contraction index set is the textbook sum over `k : Fin K`
  (`PlainDot.sum_contr`); so at the ideal instance both a `tpu.matmul` into the zero accumulator and the host's
  `dot_general` are that sum (`PlainDot.matmul_zero_apply`, `PlainDot.dotGeneral_apply`), whatever the operands'
  float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

/-- The left operand's index for output index `j` = (r, c) and contraction coordinate `k`: (r, k). -/
abbrev lIdx {M K N : Nat} (j : (⟨2, ![M, N]⟩ : Shape).Idx) (k : Fin K) : (⟨2, ![M, K]⟩ : Shape).Idx :=
  fun a => match a with
  | ⟨0, _⟩ => ⟨(j 0).val, idx2_lt0 j⟩
  | ⟨1, _⟩ => ⟨k.val, k.isLt⟩

/-- The right operand's index for output index `j` = (r, c) and contraction coordinate `k`: (k, c). -/
abbrev rIdx {M K N : Nat} (j : (⟨2, ![M, N]⟩ : Shape).Idx) (k : Fin K) : (⟨2, ![K, N]⟩ : Shape).Idx :=
  fun a => match a with
  | ⟨0, _⟩ => ⟨k.val, k.isLt⟩
  | ⟨1, _⟩ => ⟨(j 1).val, idx2_lt1 j⟩

/-- What makes a contraction a plain matrix product: one contracted axis, of extent `K`, and the four coordinate
    facts of its operand indices. -/
structure IsPlain {M K N : Nat} (D : DotDims (⟨2, ![M, K]⟩ : Shape) (⟨2, ![K, N]⟩ : Shape) (⟨2, ![M, N]⟩ : Shape)) : Prop where
  rank : D.contr.rank = 1
  size : D.contr.size ⟨0, by omega⟩ = K
  lhs0 : ∀ (j : (⟨2, ![M, N]⟩ : Shape).Idx) (q : D.contr.Idx), (D.lhsIdx j q 0).val = (j 0).val
  lhs1 : ∀ (j : (⟨2, ![M, N]⟩ : Shape).Idx) (q : D.contr.Idx), (D.lhsIdx j q 1).val = (q ⟨0, by omega⟩).val
  rhs0 : ∀ (j : (⟨2, ![M, N]⟩ : Shape).Idx) (q : D.contr.Idx), (D.rhsIdx j q 0).val = (q ⟨0, by omega⟩).val
  rhs1 : ∀ (j : (⟨2, ![M, N]⟩ : Shape).Idx) (q : D.contr.Idx), (D.rhsIdx j q 1).val = (j 1).val

variable {M K N : Nat} {D : DotDims (⟨2, ![M, K]⟩ : Shape) (⟨2, ![K, N]⟩ : Shape) (⟨2, ![M, N]⟩ : Shape)}

/-- The sum over the contraction's own index set is the sum over the contracted coordinate. -/
theorem sum_contr (h : IsPlain D) (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (lIdx j k) * r (rIdx j k) := by
  rw [← Equiv.sum_comp (contrEquiv1 D K h.rank h.size).symm]
  refine Finset.sum_congr rfl fun k _ => ?_
  have hk := contrEquiv1_symm_val D K h.rank h.size k
  have el : D.lhsIdx j ((contrEquiv1 D K h.rank h.size).symm k) = lIdx j k := funext fun a => Fin.ext (by
    match a with
    | ⟨0, _⟩ => exact h.lhs0 _ _
    | ⟨1, _⟩ => exact (h.lhs1 _ _).trans hk)
  have er : D.rhsIdx j ((contrEquiv1 D K h.rank h.size).symm k) = rIdx j k := funext fun a => Fin.ext (by
    match a with
    | ⟨0, _⟩ => exact (h.rhs0 _ _).trans hk
    | ⟨1, _⟩ => exact h.rhs1 _ _)
  rw [el, er]

/-- A `tpu.matmul` into the zero accumulator, at the ideal instance, read at an index. -/
theorem matmul_zero_apply (h : IsPlain D) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul D prec l r (constant (F := Ideal) (⟨2, ![M, N]⟩ : Shape) .f32 0x00000000#32) j
      = ∑ k : Fin K, l (lIdx j k) * r (rIdx j k) :=
  (Ideal.matmul_constant_zero_apply D prec l r j).trans (sum_contr h l r j)

/-- The host's `dot_general`, at the ideal instance, read at an index. -/
theorem dotGeneral_apply (h : IsPlain D) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral D prec sched l r j = ∑ k : Fin K, l (lIdx j k) * r (rIdx j k) :=
  (Ideal.dotGeneral_apply D prec sched l r j).trans (sum_contr h l r j)

end Idealize.ShloMosaic.PlainDot

end
-- ==== Proof.Region0.lean ====
/-
  What the first dense product's kernel leaves in its result array.

  The kernel runs at 5 grid points; point t stages rows 10000·t … 10000·t + 9999 of the [50000, 256] left operand and
  the whole [256, 256] right operand, multiplies them into a zero accumulator and writes the [10000, 256] block back
  to the same rows of the result. At the ideal instance the block's entry (r, c) is Σ_k left(10000·t + r, k)·right(k, c),
  which is entry (10000·t + r, c) of the whole product; the five blocks tile the result, so the array ends holding the
  whole product `prod A B`, (i, c) ↦ Σ_k A(i, k)·B(k, c), of the two arrays as the region finds them.
-/
import proofs.«171579_j8770323219097_1_alg».proof.Proof.Gen.KernelIdeal.Frame
import proofs.«171579_j8770323219097_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.PlainDot
open scoped BigOperators

/-- The body's contraction: [10000, 256] × [256, 256]. -/
abbrev D := dot_S10000x256_S256x256_S10000x256_1_0_0_1_n_n

theorem lhs_0 (i : S10000x256.Idx) (q : D.contr.Idx) : (D.lhsIdx i q 0).val = (i 0).val := by
  unfold DotDims.lhsIdx
  rw [dif_neg (show ¬(0 : Fin S10000x256.rank) ∈ D.lhsBatch by decide), dif_pos (show (0 : Fin S10000x256.rank) ∈ D.lhsNonContracting by decide)]
  rfl
theorem lhs_1 (i : S10000x256.Idx) (q : D.contr.Idx) : (D.lhsIdx i q 1).val = (q ⟨0, by decide⟩).val :=
  D.lhsIdx_val_of_single rfl i q
theorem rhs_0 (i : S10000x256.Idx) (q : D.contr.Idx) : (D.rhsIdx i q 0).val = (q ⟨0, by decide⟩).val :=
  D.rhsIdx_val_of_single rfl i q
theorem rhs_1 (i : S10000x256.Idx) (q : D.contr.Idx) : (D.rhsIdx i q 1).val = (i 1).val := by
  unfold DotDims.rhsIdx
  rw [dif_neg (show ¬(1 : Fin S256x256.rank) ∈ D.rhsBatch by decide), dif_pos (show (1 : Fin S256x256.rank) ∈ D.rhsNonContracting by decide)]
  rfl

/-- It is a plain matrix product: rows × the one contracted axis of extent 256 × columns. -/
theorem plain : IsPlain (M := 10000) (K := 256) (N := 256) D := ⟨rfl, rfl, lhs_0, lhs_1, rhs_0, rhs_1⟩

/-- The block the body stores, entry by entry: the sum over the contracted coordinate of the two loaded blocks. -/
theorem pay_apply (x0 : Vec Ideal S10000x256 .bf16) (x1 : Vec Ideal S256x256 .bf16) (y : S10000x256.Idx) :
    k0_pay1 (F := Ideal) x0 x1 y = ∑ k : Fin 256, x0 (lIdx y k) * x1 (rIdx y k) := by
  unfold k0_pay1
  show FloatOps.matmul D none (shapeCast S10000x256 x0 shapeCasts_S10000x256_S10000x256) (shapeCast S256x256 x1 shapeCasts_S256x256_S256x256) (constant (F := Ideal) S10000x256 .f32 0x00000000#32) y = _
  rw [shapeCast_self, shapeCast_self]
  exact matmul_zero_apply plain none x0 x1 y

variable (V : (c : Dev nD) → (b : Ref sig .tc) → Buf (Elt Ideal) ((c : Thread nD τ).loc b))

/-- The left operand's array as the region finds it. -/
abbrev lhsArr (c : Dev nD) : S50000x256.Idx → EReal := V c (Pipeline.arrRef spec0 0)
/-- The right operand's array as the region finds it. -/
abbrev rhsArr (c : Dev nD) : S256x256.Idx → EReal := V c (Pipeline.arrRef spec0 1)

/-- The whole product of a [50000, 256] array and a [256, 256] array, entry by entry. -/
def prod (A : S50000x256.Idx → EReal) (B : S256x256.Idx → EReal) : S50000x256.Idx → EReal :=
  fun i => ∑ k : Fin 256, A (lIdx i k) * B (rIdx i k)

theorem hz : (![0, 0] : Fin 2 → Nat) = fun _ => 0 := funext fun a => by fin_cases a <;> rfl

/-- The printed index maps over the grid: the left operand's and the result's blocks move together down the rows, point t
    at block row t; the right operand's block stays at the origin. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the whole product of the arrays as the region finds them. -/
theorem flushed_eq (c : Dev nD) (t : Fin cfg0.N) :
    (dat0 V c).flushed 2 t = ((cfg0.win 2).blk t).view.read (Elt Ideal) (prod (lhsArr V c) (rhsArr V c)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x256) hz]
  obtain ⟨e0, e1, e2, e3, e4, e5⟩ := idx_facts t
  funext y
  show k0_pay1 (F := Ideal) (iblk0 V c 0 t) (iblk0 V c 1 t) y = prod (lhsArr V c) (rhsArr V c) (((cfg0.win 2).blk t).view.emb y)
  refine (pay_apply _ _ _).trans ?_
  unfold prod
  refine Finset.sum_congr rfl fun k _ => ?_
  show lhsArr V c (((cfg0.win 0).blk t).view.emb (lIdx y k)) * rhsArr V c (((cfg0.win 1).blk t).view.emb (rIdx y k))
    = lhsArr V c (lIdx (((cfg0.win 2).blk t).view.emb y) k) * rhsArr V c (rIdx (((cfg0.win 2).blk t).view.emb y) k)
  have h0 : ((cfg0.win 0).blk t).view.emb (lIdx y k) = lIdx (((cfg0.win 2).blk t).view.emb y) k := by
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 256 + 1 * k.val = k.val; omega
  have h1 : ((cfg0.win 1).blk t).view.emb (rIdx y k) = rIdx (((cfg0.win 2).blk t).view.emb y) k := by
    funext a; apply Fin.ext
    match a with
    | ⟨0, _⟩ => show win0_1.index t (0 : Fin 2) * 256 + 1 * k.val = k.val; omega
    | ⟨1, _⟩ => show win0_1.index t (1 : Fin 2) * 256 + 1 * (y 1).val = win0_2.index t (1 : Fin 2) * 256 + 1 * (y 1).val; omega
  rw [h0, h1]

/-- An index of the result array is in point `t`'s block iff each coordinate is in the block's range on its axis. -/
theorem mem_blk (t : Fin cfg0.N) (i : S50000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_v32).slice (win0_2.rect t)).set ↔ _
  rw [View.set_slice_whole, Rect.mem_set_unit]
  exact Iff.rfl

/-- Every entry of the result is in the block of the point its row falls to: row i belongs to point i / 10000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have ht : (i 0).val / 10000 < grid0.N := by rw [N_0]; omega
  obtain ⟨e0, e1, e2, e3, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e5]; show (i 0).val / 10000 * 10000 ≤ (i 0).val ∧ (i 0).val < (i 0).val / 10000 * 10000 + 10000; omega
  | ⟨1, _⟩ =>
    show win0_2.index ⟨(i 0).val / 10000, ht⟩ (1 : Fin 2) * 256 ≤ (i 1).val ∧ (i 1).val < win0_2.index ⟨(i 0).val / 10000, ht⟩ (1 : Fin 2) * 256 + 256
    rw [e4]; omega

/-- The result array after the region: the whole product of the two operand arrays as the region finds them. -/
theorem arr (c : Dev nD) :
    (dat0 V c).arrAt 2 cfg0.N = prod (lhsArr V c) (rhsArr V c) :=
  (dat0 V c).arrAt_eq_of_cover 2 _ (fun t _ => flushed_eq V c t) cover

end Cert.KernelIdeal.Region0

end
-- ==== Proof.Region1.lean ====
/-
  What the second dense product's kernel leaves in its result array.

  The kernel runs at 5 grid points; point t stages rows 10000·t … 10000·t + 9999 of the [50000, 256] left operand and
  the whole [256, 256] right operand, multiplies them into a zero accumulator and writes the [10000, 256] block back
  to the same rows of the result. At the ideal instance the block's entry (r, c) is Σ_k left(10000·t + r, k)·right(k, c),
  which is entry (10000·t + r, c) of the whole product; the five blocks tile the result, so the array ends holding the
  whole product `prod A B`, (i, c) ↦ Σ_k A(i, k)·B(k, c), of the two arrays as the region finds them.
-/
import proofs.«171579_j8770323219097_1_alg».proof.Proof.Gen.KernelIdeal.Frame
import proofs.«171579_j8770323219097_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.PlainDot
open scoped BigOperators

/-- The body's contraction: [10000, 256] × [256, 256]. -/
abbrev D := dot_S10000x256_S256x256_S10000x256_1_0_0_1_n_n

theorem lhs_0 (i : S10000x256.Idx) (q : D.contr.Idx) : (D.lhsIdx i q 0).val = (i 0).val := by
  unfold DotDims.lhsIdx
  rw [dif_neg (show ¬(0 : Fin S10000x256.rank) ∈ D.lhsBatch by decide), dif_pos (show (0 : Fin S10000x256.rank) ∈ D.lhsNonContracting by decide)]
  rfl
theorem lhs_1 (i : S10000x256.Idx) (q : D.contr.Idx) : (D.lhsIdx i q 1).val = (q ⟨0, by decide⟩).val :=
  D.lhsIdx_val_of_single rfl i q
theorem rhs_0 (i : S10000x256.Idx) (q : D.contr.Idx) : (D.rhsIdx i q 0).val = (q ⟨0, by decide⟩).val :=
  D.rhsIdx_val_of_single rfl i q
theorem rhs_1 (i : S10000x256.Idx) (q : D.contr.Idx) : (D.rhsIdx i q 1).val = (i 1).val := by
  unfold DotDims.rhsIdx
  rw [dif_neg (show ¬(1 : Fin S256x256.rank) ∈ D.rhsBatch by decide), dif_pos (show (1 : Fin S256x256.rank) ∈ D.rhsNonContracting by decide)]
  rfl

/-- It is a plain matrix product: rows × the one contracted axis of extent 256 × columns. -/
theorem plain : IsPlain (M := 10000) (K := 256) (N := 256) D := ⟨rfl, rfl, lhs_0, lhs_1, rhs_0, rhs_1⟩

/-- The block the body stores, entry by entry: the sum over the contracted coordinate of the two loaded blocks. -/
theorem pay_apply (x0 : Vec Ideal S10000x256 .bf16) (x1 : Vec Ideal S256x256 .bf16) (y : S10000x256.Idx) :
    k1_pay1 (F := Ideal) x0 x1 y = ∑ k : Fin 256, x0 (lIdx y k) * x1 (rIdx y k) := by
  unfold k1_pay1
  show FloatOps.matmul D none (shapeCast S10000x256 x0 shapeCasts_S10000x256_S10000x256) (shapeCast S256x256 x1 shapeCasts_S256x256_S256x256) (constant (F := Ideal) S10000x256 .f32 0x00000000#32) y = _
  rw [shapeCast_self, shapeCast_self]
  exact matmul_zero_apply plain none x0 x1 y

variable (V : (c : Dev nD) → (b : Ref sig .tc) → Buf (Elt Ideal) ((c : Thread nD τ).loc b))

/-- The left operand's array as the region finds it. -/
abbrev lhsArr (c : Dev nD) : S50000x256.Idx → EReal := V c (Pipeline.arrRef spec1 0)
/-- The right operand's array as the region finds it. -/
abbrev rhsArr (c : Dev nD) : S256x256.Idx → EReal := V c (Pipeline.arrRef spec1 1)

/-- The whole product of a [50000, 256] array and a [256, 256] array, entry by entry. -/
def prod (A : S50000x256.Idx → EReal) (B : S256x256.Idx → EReal) : S50000x256.Idx → EReal :=
  fun i => ∑ k : Fin 256, A (lIdx i k) * B (rIdx i k)

theorem hz : (![0, 0] : Fin 2 → Nat) = fun _ => 0 := funext fun a => by fin_cases a <;> rfl

/-- The printed index maps over the grid: the left operand's and the result's blocks move together down the rows, point t
    at block row t; the right operand's block stays at the origin. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point `t` writes back is block `t` of the whole product of the arrays as the region finds them. -/
theorem flushed_eq (c : Dev nD) (t : Fin cfg1.N) :
    (dat1 V c).flushed 2 t = ((cfg1.win 2).blk t).view.read (Elt Ideal) (prod (lhsArr V c) (rhsArr V c)) := by
  show (cfg1.win 2).cut (grid1.coords t) ((dat1 V c).after 2 t) = _
  rw [after1_2]
  unfold out1_2
  rw [View.canon_unit_zero hz]
  simp only [View.ld_unit_zero (S := S10000x256) hz, View.ld_unit_zero (S := S256x256) hz]
  obtain ⟨e0, e1, e2, e3, e4, e5⟩ := idx_facts t
  funext y
  show k1_pay1 (F := Ideal) (iblk1 V c 0 t) (iblk1 V c 1 t) y = prod (lhsArr V c) (rhsArr V c) (((cfg1.win 2).blk t).view.emb y)
  refine (pay_apply _ _ _).trans ?_
  unfold prod
  refine Finset.sum_congr rfl fun k _ => ?_
  show lhsArr V c (((cfg1.win 0).blk t).view.emb (lIdx y k)) * rhsArr V c (((cfg1.win 1).blk t).view.emb (rIdx y k))
    = lhsArr V c (lIdx (((cfg1.win 2).blk t).view.emb y) k) * rhsArr V c (rIdx (((cfg1.win 2).blk t).view.emb y) k)
  have h0 : ((cfg1.win 0).blk t).view.emb (lIdx y k) = lIdx (((cfg1.win 2).blk t).view.emb y) k := by
    funext a; apply Fin.ext
    match a with
    | ⟨0, _⟩ => show win1_0.index t (0 : Fin 2) * 10000 + 1 * (y 0).val = win1_2.index t (0 : Fin 2) * 10000 + 1 * (y 0).val; omega
    | ⟨1, _⟩ => show win1_0.index t (1 : Fin 2) * 256 + 1 * k.val = k.val; omega
  have h1 : ((cfg1.win 1).blk t).view.emb (rIdx y k) = rIdx (((cfg1.win 2).blk t).view.emb y) k := by
    funext a; apply Fin.ext
    match a with
    | ⟨0, _⟩ => show win1_1.index t (0 : Fin 2) * 256 + 1 * k.val = k.val; omega
    | ⟨1, _⟩ => show win1_1.index t (1 : Fin 2) * 256 + 1 * (y 1).val = win1_2.index t (1 : Fin 2) * 256 + 1 * (y 1).val; omega
  rw [h0, h1]

/-- An index of the result array is in point `t`'s block iff each coordinate is in the block's range on its axis. -/
theorem mem_blk (t : Fin cfg1.N) (i : S50000x256.Idx) :
    i ∈ ((cfg1.win 2).blk t).view.set ↔ ∀ a : Fin 2, win1_2.index t a * S10000x256.size a ≤ (i a).val ∧ (i a).val < win1_2.index t a * S10000x256.size a + S10000x256.size a := by
  show i ∈ ((View.whole main_v52).slice (win1_2.rect t)).set ↔ _
  rw [View.set_slice_whole, Rect.mem_set_unit]
  exact Iff.rfl

/-- Every entry of the result is in the block of the point its row falls to: row i belongs to point i / 10000. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have ht : (i 0).val / 10000 < grid1.N := by rw [N_1]; omega
  obtain ⟨e0, e1, e2, e3, e4, e5⟩ := idx_facts ⟨(i 0).val / 10000, ht⟩
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e5]; show (i 0).val / 10000 * 10000 ≤ (i 0).val ∧ (i 0).val < (i 0).val / 10000 * 10000 + 10000; omega
  | ⟨1, _⟩ =>
    show win1_2.index ⟨(i 0).val / 10000, ht⟩ (1 : Fin 2) * 256 ≤ (i 1).val ∧ (i 1).val < win1_2.index ⟨(i 0).val / 10000, ht⟩ (1 : Fin 2) * 256 + 256
    rw [e4]; omega

/-- The result array after the region: the whole product of the two operand arrays as the region finds them. -/
theorem arr (c : Dev nD) :
    (dat1 V c).arrAt 2 cfg1.N = prod (lhsArr V c) (rhsArr V c) :=
  (dat1 V c).arrAt_eq_of_cover 2 _ (fun t _ => flushed_eq V c t) cover

end Cert.KernelIdeal.Region1

end
-- ==== Proof.Region2.lean ====
/-
  What the classifier's kernel leaves in its result array.

  The kernel runs at 5 grid points; point t stages rows 10000·t … 10000·t + 9999 of the [50000, 256] features, the whole
  [256, 2] weights and the [1, 2] bias row, multiplies features by weights into a zero accumulator, adds the bias row to
  every row and writes the [10000, 2] block back to the same rows of the result. At the ideal instance the block's entry
  (r, c) is Σ_k features(10000·t + r, k)·weights(k, c) + bias(0, c), which is entry (10000·t + r, c) of the whole
  product with the bias row added; the five blocks tile the result, so the array ends holding `prodb A B C`,
  (i, c) ↦ Σ_k A(i, k)·B(k, c) + C(0, c), of the three arrays as the region finds them.
-/
import proofs.«171579_j8770323219097_1_alg».proof.Proof.Gen.KernelIdeal.Frame
import proofs.«171579_j8770323219097_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.PlainDot Idealize.ShloMosaic.ValueIdx
open scoped BigOperators

/-- The body's contraction: [10000, 256] × [256, 2]. -/
abbrev D := dot_S10000x256_S256x2_S10000x2_1_0_0_1_n_n

theorem lhs_0 (i : S10000x2.Idx) (q : D.contr.Idx) : (D.lhsIdx i q 0).val = (i 0).val := by
  unfold DotDims.lhsIdx
  rw [dif_neg (show ¬(0 : Fin S10000x256.rank) ∈ D.lhsBatch by decide), dif_pos (show (0 : Fin S10000x256.rank) ∈ D.lhsNonContracting by decide)]
  rfl
theorem lhs_1 (i : S10000x2.Idx) (q : D.contr.Idx) : (D.lhsIdx i q 1).val = (q ⟨0, by decide⟩).val :=
  D.lhsIdx_val_of_single rfl i q
theorem rhs_0 (i : S10000x2.Idx) (q : D.contr.Idx) : (D.rhsIdx i q 0).val = (q ⟨0, by decide⟩).val :=
  D.rhsIdx_val_of_single rfl i q
theorem rhs_1 (i : S10000x2.Idx) (q : D.contr.Idx) : (D.rhsIdx i q 1).val = (i 1).val := by
  unfold DotDims.rhsIdx
  rw [dif_neg (show ¬(1 : Fin S256x2.rank) ∈ D.rhsBatch by decide), dif_pos (show (1 : Fin S256x2.rank) ∈ D.rhsNonContracting by decide)]
  rfl

/-- It is a plain matrix product: rows × the one contracted axis of extent 256 × the two columns. -/
theorem plain : IsPlain (M := 10000) (K := 256) (N := 2) D := ⟨rfl, rfl, lhs_0, lhs_1, rhs_0, rhs_1⟩

/-- The entry of the [1, 2] bias row that column c of an [M, 2] array reads: (0, c). -/
abbrev biasIdx {M : Nat} (i : (⟨2, ![M, 2]⟩ : Shape).Idx) : S1x2.Idx :=
  fun a => match a with
  | ⟨0, _⟩ => (0 : Fin 1)
  | ⟨1, _⟩ => ⟨(i 1).val, idx2_lt1 i⟩

/-- The block the body stores, entry by entry: the sum over the contracted coordinate of the two loaded blocks, plus the
    bias row's entry at the column. -/
theorem pay_apply (x0 : Vec Ideal S10000x256 .bf16) (x1 : Vec Ideal S256x2 .bf16) (x2 : Vec Ideal S1x2 .f32) (y : S10000x2.Idx) :
    k2_pay1 (F := Ideal) x0 x1 x2 y = (∑ k : Fin 256, x0 (lIdx y k) * x1 (rIdx y k)) + x2 (biasIdx y) := by
  unfold k2_pay1
  show addf (FloatOps.matmul D none (shapeCast S10000x256 x0 shapeCasts_S10000x256_S10000x256) (shapeCast S256x2 x1 shapeCasts_S256x2_S256x2) (constant (F := Ideal) S10000x2 .f32 0x00000000#32))
    (broadcastTo S10000x2 (shapeCast S1x2 x2 shapeCasts_S1x2_S1x2) broadcasts_S1x2_S10000x2) y = _
  rw [shapeCast_self, shapeCast_self, shapeCast_self, addf_apply]
  rw [broadcastTo_apply x2 broadcasts_S1x2_S10000x2 y (biasIdx y) (fun a => by
    match a with
    | ⟨0, _⟩ => rfl
    | ⟨1, _⟩ => rfl)]
  exact congrArg (· + x2 (biasIdx y)) (matmul_zero_apply plain none x0 x1 y)

variable (V : (c : Dev nD) → (b : Ref sig .tc) → Buf (Elt Ideal) ((c : Thread nD τ).loc b))

/-- The features' array as the region finds it. -/
abbrev lhsArr (c : Dev nD) : S50000x256.Idx → EReal := V c (Pipeline.arrRef spec2 0)
/-- The weights' array as the region finds it. -/
abbrev rhsArr (c : Dev nD) : S256x2.Idx → EReal := V c (Pipeline.arrRef spec2 1)
/-- The bias row's array as the region finds it. -/
abbrev biasArr (c : Dev nD) : S1x2.Idx → EReal := V c (Pipeline.arrRef spec2 2)

/-- The whole product of a [50000, 256] array and a [256, 2] array with a [1, 2] row added to every row, entry by entry. -/
def prodb (A : S50000x256.Idx → EReal) (B : S256x2.Idx → EReal) (C : S1x2.Idx → EReal) : S50000x2.Idx → EReal :=
  fun i => (∑ k : Fin 256, A (lIdx i k) * B (rIdx i k)) + C (biasIdx i)

theorem hz : (![0, 0] : Fin 2 → Nat) = fun _ => 0 := funext fun a => by fin_cases a <;> rfl

/-- The printed index maps over the grid: the features' and the result's blocks move together down the rows, point t at
    block row t; the weights' and the bias row's blocks stay at the origin. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) = t.val :=
  (by decide +kernel : ∀ t : Fin grid2.N, _)

/-- What point `t` writes back is block `t` of the whole biased product of the arrays as the region finds them. -/
theorem flushed_eq (c : Dev nD) (t : Fin cfg2.N) :
    (dat2 V c).flushed 3 t = ((cfg2.win 3).blk t).view.read (Elt Ideal) (prodb (lhsArr V c) (rhsArr V c) (biasArr V c)) := by
  show (cfg2.win 3).cut (grid2.coords t) ((dat2 V c).after 3 t) = _
  rw [after2_3]
  unfold out2_3
  rw [View.canon_unit_zero hz]
  simp only [View.ld_unit_zero (S := S10000x256) hz, View.ld_unit_zero (S := S256x2) hz, View.ld_unit_zero (S := S1x2) hz]
  obtain ⟨e0, e1, e2, e3, e4, e5, e6, e7⟩ := idx_facts t
  funext y
  show k2_pay1 (F := Ideal) (iblk2 V c 0 t) (iblk2 V c 1 t) (iblk2 V c 2 t) y = prodb (lhsArr V c) (rhsArr V c) (biasArr V c) (((cfg2.win 3).blk t).view.emb y)
  refine (pay_apply _ _ _ _).trans ?_
  unfold prodb
  have hb : ((cfg2.win 2).blk t).view.emb (biasIdx y) = biasIdx (((cfg2.win 3).blk t).view.emb y) := by
    funext a; apply Fin.ext
    match a with
    | ⟨0, _⟩ => show win2_2.index t (0 : Fin 2) * 1 + 1 * 0 = 0; omega
    | ⟨1, _⟩ => show win2_2.index t (1 : Fin 2) * 2 + 1 * (y 1).val = win2_3.index t (1 : Fin 2) * 2 + 1 * (y 1).val; omega
  show (∑ k : Fin 256, lhsArr V c (((cfg2.win 0).blk t).view.emb (lIdx y k)) * rhsArr V c (((cfg2.win 1).blk t).view.emb (rIdx y k))) + biasArr V c (((cfg2.win 2).blk t).view.emb (biasIdx y))
    = (∑ k : Fin 256, lhsArr V c (lIdx (((cfg2.win 3).blk t).view.emb y) k) * rhsArr V c (rIdx (((cfg2.win 3).blk t).view.emb y) k)) + biasArr V c (biasIdx (((cfg2.win 3).blk t).view.emb y))
  rw [hb]
  refine congrArg (· + biasArr V c (biasIdx (((cfg2.win 3).blk t).view.emb y))) (Finset.sum_congr rfl fun k _ => ?_)
  have h0 : ((cfg2.win 0).blk t).view.emb (lIdx y k) = lIdx (((cfg2.win 3).blk t).view.emb y) k := by
    funext a; apply Fin.ext
    match a with
    | ⟨0, _⟩ => show win2_0.index t (0 : Fin 2) * 10000 + 1 * (y 0).val = win2_3.index t (0 : Fin 2) * 10000 + 1 * (y 0).val; omega
    | ⟨1, _⟩ => show win2_0.index t (1 : Fin 2) * 256 + 1 * k.val = k.val; omega
  have h1 : ((cfg2.win 1).blk t).view.emb (rIdx y k) = rIdx (((cfg2.win 3).blk t).view.emb y) k := by
    funext a; apply Fin.ext
    match a with
    | ⟨0, _⟩ => show win2_1.index t (0 : Fin 2) * 256 + 1 * k.val = k.val; omega
    | ⟨1, _⟩ => show win2_1.index t (1 : Fin 2) * 2 + 1 * (y 1).val = win2_3.index t (1 : Fin 2) * 2 + 1 * (y 1).val; omega
  rw [h0, h1]

/-- An index of the result array is in point `t`'s block iff each coordinate is in the block's range on its axis. -/
theorem mem_blk (t : Fin cfg2.N) (i : S50000x2.Idx) :
    i ∈ ((cfg2.win 3).blk t).view.set ↔ ∀ a : Fin 2, win2_3.index t a * S10000x2.size a ≤ (i a).val ∧ (i a).val < win2_3.index t a * S10000x2.size a + S10000x2.size a := by
  show i ∈ ((View.whole main_v73).slice (win2_3.rect t)).set ↔ _
  rw [View.set_slice_whole, Rect.mem_set_unit]
  exact Iff.rfl

/-- Every entry of the result is in the block of the point its row falls to: row i belongs to point i / 10000. -/
theorem cover (i : S50000x2.Idx) : ∃ t : Fin cfg2.N, (cfg2.win 3).flush t = true ∧ i ∈ ((cfg2.win 3).blk t).view.set := by
  have hi0 : (i 0).val < 50000 := (i 0).isLt
  have hi1 : (i 1).val < 2 := (i 1).isLt
  have ht : (i 0).val / 10000 < grid2.N := by rw [N_2]; omega
  obtain ⟨e0, e1, e2, e3, e4, e5, e6, e7⟩ := idx_facts ⟨(i 0).val / 10000, ht⟩
  refine ⟨⟨(i 0).val / 10000, ht⟩, flush2_3 _, ?_⟩
  rw [mem_blk]
  intro a
  match a with
  | ⟨0, _⟩ =>
    show win2_3.index ⟨(i 0).val / 10000, ht⟩ (0 : Fin 2) * 10000 ≤ (i 0).val ∧ (i 0).val < win2_3.index ⟨(i 0).val / 10000, ht⟩ (0 : Fin 2) * 10000 + 10000
    rw [e7]; show (i 0).val / 10000 * 10000 ≤ (i 0).val ∧ (i 0).val < (i 0).val / 10000 * 10000 + 10000; omega
  | ⟨1, _⟩ =>
    show win2_3.index ⟨(i 0).val / 10000, ht⟩ (1 : Fin 2) * 2 ≤ (i 1).val ∧ (i 1).val < win2_3.index ⟨(i 0).val / 10000, ht⟩ (1 : Fin 2) * 2 + 2
    rw [e6]; omega

/-- The result array after the region: the whole biased product of the three operand arrays as the region finds them. -/
theorem arr (c : Dev nD) :
    (dat2 V c).arrAt 3 cfg2.N = prodb (lhsArr V c) (rhsArr V c) (biasArr V c) :=
  (dat2 V c).arrAt_eq_of_cover 3 _ (fun t _ => flushed_eq V c t) cover

end Cert.KernelIdeal.Region2

end
-- ==== Proof.DotRead.lean ====
/-
  The reference's two dense products read at an index, at the ideal instance.

  Both `dot_general`s contract the left operand's columns against the right operand's rows — plain matrix products —, so
  `xw h W` at (i, c) is Σ_k h(i, k)·W(k, c), and `logits h W b` at (i, c) is that sum plus the bias entry b(c): the two
  broadcasts that spread the bias over the rows read it back at the column.
-/
import proofs.«171579_j8770323219097_1_alg».proof.Proof.Spec
import proofs.«171579_j8770323219097_1_alg».proof.Proof.LibPlainDot
import Idealize.ShloMosaic.Lib.Pipeline.Value
import Idealize.ShloMosaic.Lib.ValueIdx
import Idealize.ShloMosaic.PureOps.Ideal.Laws

noncomputable section

namespace Cert.Gcn

open Idealize.ShloMosaic Cert.ReferenceIdeal Cert.ReferenceIdeal.Gen Idealize.ShloMosaic.PlainDot Idealize.ShloMosaic.ValueIdx
open scoped BigOperators

/-- The hidden layers' contraction: [50000, 256] × [256, 256]. -/
abbrev Dh := dot_S50000x256_S256x256_S50000x256_1_0_0_1_n_n

theorem Dh_lhs_0 (i : S50000x256.Idx) (q : Dh.contr.Idx) : (Dh.lhsIdx i q 0).val = (i 0).val := by
  unfold DotDims.lhsIdx
  rw [dif_neg (show ¬(0 : Fin S50000x256.rank) ∈ Dh.lhsBatch by decide), dif_pos (show (0 : Fin S50000x256.rank) ∈ Dh.lhsNonContracting by decide)]
  rfl
theorem Dh_lhs_1 (i : S50000x256.Idx) (q : Dh.contr.Idx) : (Dh.lhsIdx i q 1).val = (q ⟨0, by decide⟩).val :=
  Dh.lhsIdx_val_of_single rfl i q
theorem Dh_rhs_0 (i : S50000x256.Idx) (q : Dh.contr.Idx) : (Dh.rhsIdx i q 0).val = (q ⟨0, by decide⟩).val :=
  Dh.rhsIdx_val_of_single rfl i q
theorem Dh_rhs_1 (i : S50000x256.Idx) (q : Dh.contr.Idx) : (Dh.rhsIdx i q 1).val = (i 1).val := by
  unfold DotDims.rhsIdx
  rw [dif_neg (show ¬(1 : Fin S256x256.rank) ∈ Dh.rhsBatch by decide), dif_pos (show (1 : Fin S256x256.rank) ∈ Dh.rhsNonContracting by decide)]
  rfl

theorem Dh_plain : IsPlain (M := 50000) (K := 256) (N := 256) Dh := ⟨rfl, rfl, Dh_lhs_0, Dh_lhs_1, Dh_rhs_0, Dh_rhs_1⟩

/-- The classifier's contraction: [50000, 256] × [256, 2]. -/
abbrev Dc := dot_S50000x256_S256x2_S50000x2_1_0_0_1_n_n

theorem Dc_lhs_0 (i : S50000x2.Idx) (q : Dc.contr.Idx) : (Dc.lhsIdx i q 0).val = (i 0).val := by
  unfold DotDims.lhsIdx
  rw [dif_neg (show ¬(0 : Fin S50000x256.rank) ∈ Dc.lhsBatch by decide), dif_pos (show (0 : Fin S50000x256.rank) ∈ Dc.lhsNonContracting by decide)]
  rfl
theorem Dc_lhs_1 (i : S50000x2.Idx) (q : Dc.contr.Idx) : (Dc.lhsIdx i q 1).val = (q ⟨0, by decide⟩).val :=
  Dc.lhsIdx_val_of_single rfl i q
theorem Dc_rhs_0 (i : S50000x2.Idx) (q : Dc.contr.Idx) : (Dc.rhsIdx i q 0).val = (q ⟨0, by decide⟩).val :=
  Dc.rhsIdx_val_of_single rfl i q
theorem Dc_rhs_1 (i : S50000x2.Idx) (q : Dc.contr.Idx) : (Dc.rhsIdx i q 1).val = (i 1).val := by
  unfold DotDims.rhsIdx
  rw [dif_neg (show ¬(1 : Fin S256x2.rank) ∈ Dc.rhsBatch by decide), dif_pos (show (1 : Fin S256x2.rank) ∈ Dc.rhsNonContracting by decide)]
  rfl

theorem Dc_plain : IsPlain (M := 50000) (K := 256) (N := 2) Dc := ⟨rfl, rfl, Dc_lhs_0, Dc_lhs_1, Dc_rhs_0, Dc_rhs_1⟩

/-- A hidden layer's dense product, entry by entry. -/
theorem xw_apply (h : Arr Ideal S50000x256 .f32) (W : Arr Ideal S256x256 .f32) (i : S50000x256.Idx) :
    xw (F := Ideal) h W i = ∑ k : Fin 256, h (lIdx i k) * W (rIdx i k) := by
  unfold xw
  exact dotGeneral_apply Dh_plain none _ h W i

/-- The bias entry a column of the logits reads. -/
abbrev colIdx (i : S50000x2.Idx) : S2.Idx := fun a => match a with | ⟨0, _⟩ => ⟨(i 1).val, idx2_lt1 i⟩

/-- The entry of the [1, 2] bias row a logits entry reads: (0, its column). -/
abbrev rowIdx (i : S50000x2.Idx) : S1x2.Idx := fun a => match a with
  | ⟨0, _⟩ => (0 : Fin 1)
  | ⟨1, _⟩ => ⟨(i 1).val, idx2_lt1 i⟩

/-- The bias row spread over the rows, read back at an entry: the bias at that entry's column. -/
theorem biasRows_apply (b : Arr Ideal S2 .f32) (i : S50000x2.Idx) :
    broadcastInDim S50000x2 ![0, 1] bcast_S1x2_S50000x2_0_1 (broadcastInDim S1x2 ![1] bcast_S2_S1x2_1 b) i = b (colIdx i) := by
  have h1 : broadcastInDim S50000x2 ![0, 1] bcast_S1x2_S50000x2_0_1 (broadcastInDim S1x2 ![1] bcast_S2_S1x2_1 b) i
      = broadcastInDim S1x2 ![1] bcast_S2_S1x2_1 b (rowIdx i) :=
    broadcastInDim_apply ![0, 1] bcast_S1x2_S50000x2_0_1 (broadcastInDim S1x2 ![1] bcast_S2_S1x2_1 b) i (rowIdx i) (fun a => by
      match a with
      | ⟨0, _⟩ => rfl
      | ⟨1, _⟩ => rfl)
  have h2 : broadcastInDim S1x2 ![1] bcast_S2_S1x2_1 b (rowIdx i) = b (colIdx i) :=
    broadcastInDim_apply ![1] bcast_S2_S1x2_1 b (rowIdx i) (colIdx i) (fun a => by
      match a with
      | ⟨0, _⟩ => rfl)
  exact h1.trans h2

/-- The classifier's logits, entry by entry. -/
theorem logits_apply (h : Arr Ideal S50000x256 .f32) (W : Arr Ideal S256x2 .f32) (b : Arr Ideal S2 .f32) (i : S50000x2.Idx) :
    logits (F := Ideal) h W b i = (∑ k : Fin 256, h (lIdx i k) * W (rIdx i k)) + b (colIdx i) := by
  unfold logits
  rw [addf_apply, biasRows_apply]
  exact congrArg (· + b (colIdx i)) (dotGeneral_apply Dc_plain none _ h W i)

end Cert.Gcn

end
-- ==== Proof.Bridge.lean ====
/-
  At the ideal instance the idealized kernel program's result is the network `Cert.Gcn.G` of its eight arguments.

  Narrowing to bf16 is the identity on extended reals, and each kernel's result array is the whole matrix product of
  its operand arrays (`Region0.arr`, `Region1.arr`, `Region2.arr`), which is what the reference's `dot_general` is there
  (`Cert.Gcn.xw_apply`, `Cert.Gcn.logits_apply`: both are the sum over the contracted coordinate; the classifier's bias,
  staged as a [1, 2] row, is read back at the column). So the three kernels compute `xw x W1`, `xw h1 W2` and
  `logits h2 Wfc bfc`, and the host stretches between them are the network's other pieces (`Chain`).
-/
import proofs.«171579_j8770323219097_1_alg».proof.Proof.KernelChain
import proofs.«171579_j8770323219097_1_alg».proof.Proof.Region0
import proofs.«171579_j8770323219097_1_alg».proof.Proof.Region1
import proofs.«171579_j8770323219097_1_alg».proof.Proof.Region2
import proofs.«171579_j8770323219097_1_alg».proof.Proof.DotRead

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.PlainDot Idealize.ShloMosaic.ValueIdx
open scoped BigOperators

variable (m : (ℓ : Loc nD τ sig) → Buf (Elt Ideal) ℓ) (ρ : Dev nD → PrngReg) (c : Dev nD)

/-- The first kernel's result array is the first dense product, features × first weights. -/
theorem layer0 : (dat0 (F := Ideal) (V3 m ρ) c).arrAt 2 cfg0.N = Cert.Gcn.xw (F := Ideal) (m ((c : Thread nD τ).loc main_arg0)) (m ((c : Thread nD τ).loc main_arg2)) := by
  rw [Region0.arr]
  funext i
  rw [Cert.Gcn.xw_apply]
  unfold Region0.prod
  have hx : Region0.lhsArr (V3 m ρ) c = (truncf .bf16 (m ((c : Thread nD τ).loc main_arg0)) bitsLt_bf16_f32 : FVec Ideal S50000x256 .bf16) := Chain.x3 m ρ c
  have hw : Region0.rhsArr (V3 m ρ) c = (truncf .bf16 (m ((c : Thread nD τ).loc main_arg2)) bitsLt_bf16_f32 : FVec Ideal S256x256 .bf16) := Chain.w3 m ρ c
  rw [hx, hw]
  rfl

/-- The second kernel's result array is the second dense product, first hidden layer × second weights. -/
theorem layer1 : (dat1 (F := Ideal) (V7 m ρ) c).arrAt 2 cfg1.N
    = Cert.Gcn.xw (F := Ideal) (Cert.Gcn.h1 (m ((c : Thread nD τ).loc main_arg0)) (m ((c : Thread nD τ).loc main_arg1)) (m ((c : Thread nD τ).loc main_arg2)) (m ((c : Thread nD τ).loc main_arg3))) (m ((c : Thread nD τ).loc main_arg4)) := by
  rw [Region1.arr]
  funext i
  rw [Cert.Gcn.xw_apply]
  unfold Region1.prod
  have hx : Region1.lhsArr (V7 m ρ) c
      = (truncf .bf16 (Cert.Gcn.agg ((dat0 (F := Ideal) (V3 m ρ) c).arrAt 2 cfg0.N) (Cert.Gcn.src (m ((c : Thread nD τ).loc main_arg1))) (Cert.Gcn.dst (m ((c : Thread nD τ).loc main_arg1))) (Cert.Gcn.norm (Cert.Gcn.src (m ((c : Thread nD τ).loc main_arg1))) (Cert.Gcn.dst (m ((c : Thread nD τ).loc main_arg1)))) (m ((c : Thread nD τ).loc main_arg3))) bitsLt_bf16_f32 : FVec Ideal S50000x256 .bf16) := Chain.h7 m ρ c
  have hw : Region1.rhsArr (V7 m ρ) c = (truncf .bf16 (m ((c : Thread nD τ).loc main_arg4)) bitsLt_bf16_f32 : FVec Ideal S256x256 .bf16) := Chain.w7 m ρ c
  rw [hx, hw, layer0]
  rfl

/-- The classifier's bias staged as a [1, 2] row, read at a logits entry's column, is the bias at that column. -/
theorem biasRow_apply (b : S2.Idx → EReal) (i : S50000x2.Idx) :
    shapeCast S1x2 b shapeCasts_S2_S1x2 (Region2.biasIdx i) = b (Cert.Gcn.colIdx i) :=
  shapeCast_apply b shapeCasts_S2_S1x2 (Region2.biasIdx i) (Cert.Gcn.colIdx i) (by
    rw [Shape.rowMajor_val_one, Shape.rowMajor_val_two]
    show (i 1).val = 0 * 2 + (i 1).val
    omega)

/-- The classifier's result array is the logits, second hidden layer × classifier weights plus the bias row. -/
theorem layer2 : (dat2 (F := Ideal) (V11 m ρ) c).arrAt 3 cfg2.N
    = Cert.Gcn.logits (F := Ideal) (Cert.Gcn.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) := by
  rw [Region2.arr]
  funext i
  rw [Cert.Gcn.logits_apply]
  unfold Region2.prodb
  have hx : Region2.lhsArr (V11 m ρ) c
      = (truncf .bf16 (Cert.Gcn.agg ((dat1 (F := Ideal) (V7 m ρ) c).arrAt 2 cfg1.N) (Cert.Gcn.src (m ((c : Thread nD τ).loc main_arg1))) (Cert.Gcn.dst (m ((c : Thread nD τ).loc main_arg1))) (Cert.Gcn.norm (Cert.Gcn.src (m ((c : Thread nD τ).loc main_arg1))) (Cert.Gcn.dst (m ((c : Thread nD τ).loc main_arg1)))) (m ((c : Thread nD τ).loc main_arg5))) bitsLt_bf16_f32 : FVec Ideal S50000x256 .bf16) := Chain.h11 m ρ c
  have hw : Region2.rhsArr (V11 m ρ) c = (truncf .bf16 (m ((c : Thread nD τ).loc main_arg6)) bitsLt_bf16_f32 : FVec Ideal S256x2 .bf16) := Chain.w11 m ρ c
  have hb : Region2.biasArr (V11 m ρ) c = (shapeCast S1x2 (m ((c : Thread nD τ).loc main_arg7)) shapeCasts_S2_S1x2 : FVec Ideal S1x2 .f32) := Chain.b11 m ρ c
  rw [hx, hw, hb, layer1, biasRow_apply]
  rfl

/-- The program's result buffer at the end of the run: the network of the eight arguments as launched. -/
theorem result : W13 m ρ c (Proc.devRef .tc main_v74)
    = Cert.Gcn.G (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Chain.result13, layer2]
  rfl

end Cert.KernelIdeal.Bridge

end
-- ==== Proof.lean ====
/-
  A two-layer graph convolution with a linear classifier and a row-wise log-softmax, over 50000 nodes with 256
  features and 800000 edges: the kernel program computes its three dense products x·W1, h1·W2 and h2·Wfc + bfc in
  Pallas kernels — each over 5 blocks of 10000 rows, the operands narrowed to bf16, the products accumulated in f32
  from zero — and everything else (self loops, degrees, the symmetric edge weights, gather, scale, segment sum, bias,
  relu, log-softmax) with the same host operations as the reference, which computes the three products by `dot_general`.

  Over the extended reals narrowing is the identity, a block of a product is the product's block, and both products
  are the same sum over the contracted coordinate; so both programs compute one function `Cert.Gcn.G` of the eight
  arguments (Proof/Spec.lean): the kernel program by following its buffers through @main (Proof/KernelChain.lean,
  Proof/Region0.lean … Region2.lean, Proof/Bridge.lean), the reference by reading its run's term piece for piece
  (Proof/RefValue.lean). No law of arithmetic beyond re-indexing a finite sum is used, so the precondition is never
  opened. The ideal pass rewrote nothing, so `preserves` asks nothing.
-/
import proofs.«171579_j8770323219097_1_alg».proof.Defs
import proofs.«171579_j8770323219097_1_alg».proof.Proof.Gen.Kernel
import proofs.«171579_j8770323219097_1_alg».proof.Proof.Gen.Kernel.Skeleton
import proofs.«171579_j8770323219097_1_alg».proof.Proof.Gen.Kernel.Launch
import proofs.«171579_j8770323219097_1_alg».proof.Proof.Gen.Kernel.Points
import proofs.«171579_j8770323219097_1_alg».proof.Proof.Gen.Kernel.Frame
import proofs.«171579_j8770323219097_1_alg».proof.Proof.Gen.KernelIdeal
import proofs.«171579_j8770323219097_1_alg».proof.Proof.Gen.KernelIdeal.Skeleton
import proofs.«171579_j8770323219097_1_alg».proof.Proof.Gen.KernelIdeal.Launch
import proofs.«171579_j8770323219097_1_alg».proof.Proof.Gen.KernelIdeal.Points
import proofs.«171579_j8770323219097_1_alg».proof.Proof.Gen.KernelIdeal.Frame
import proofs.«171579_j8770323219097_1_alg».proof.Proof.Gen.ReferenceIdeal
import proofs.«171579_j8770323219097_1_alg».proof.Proof.Gen.Pre_finite_inputs
import proofs.«171579_j8770323219097_1_alg».proof.Proof.RunResult
import proofs.«171579_j8770323219097_1_alg».proof.Proof.RefRun
import proofs.«171579_j8770323219097_1_alg».proof.Proof.RefValue
import proofs.«171579_j8770323219097_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the eight arguments both idealized programs end with the network `Cert.Gcn.G` of those
    arguments in their result buffers, the arguments unchanged. -/
theorem algebraic : Cert.algebraic_KernelIdeal_ReferenceIdeal := by
  intro m ρ m' ρ' _ hagree
  refine ⟨fun c => Cert.Gcn.G (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.KernelIdeal.Bridge.result m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.RefValue.res_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
